-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S16x7 1) : IVec S_ 1 :=
  let main_c_5 : IVec S_ 1 := constantI S_ 1 1#1
  let main_v17 : IVec S_ 1 := (fun x v => Host.reduce IntOp.andi x v reducesTo_S16x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x1433 .f32) (main_arg1 : IVec S2x3200000 32) (main_arg2 : FVec F S1433x16 .f32) (main_arg3 : FVec F S16 .f32) (main_arg4 : FVec F S16x7 .f32) (main_arg5 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x7 .f32 := Host.absf main_arg4
  let main_cst_4 : FVec F S_ .f32 := constant S_ .f32 0x7F800000#32
  let main_v15 : FVec F S16x7 .f32 := broadcastInDim S16x7 ![] bcast_S_S16x7 main_cst_4
  let main_v16 : IVec S16x7 1 := cmpf .olt main_v14 main_v15
  fn_part1 (F := F) main_arg5 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1433 : Shape := ⟨2, ![2000, 1433]⟩
abbrev S2000x16 : Shape := ⟨2, ![2000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 8
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x16, .f32⟩
  | .local _ .vmem, ⟨3, _⟩ => ⟨S2000x16, .f32⟩
  | .local _ .vmem, ⟨4, _⟩ => ⟨S2000x16, .f32⟩
  | .local _ .vmem, ⟨5, _⟩ => ⟨S100000x16, .f32⟩
  | .local _ .vmem, ⟨6, _⟩ => ⟨S16x7, .f32⟩
  | .local _ .vmem, ⟨7, _⟩ => ⟨S100000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S100000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S16x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100000x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x1433_S2000x1433_0_0 : ∀ a, (![0, 0] : Fin 2 → Nat) a + S2000x1433.size a ≤ S2000x1433.size a
  h_S2000x1433 : 0 < S2000x1433.numel
  inb_S1433x16_S1433x16_0_0 : ∀ a, (![0, 0] : Fin 2 → Nat) a + S1433x16.size a ≤ S1433x16.size a
  h_S1433x16 : 0 < S1433x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S100000x16_S100000x16_0_0 : ∀ a, (![0, 0] : Fin 2 → Nat) a + S100000x16.size a ≤ S100000x16.size a
  h_S100000x16 : 0 < S100000x16.numel
  shapeCasts_S100000x16_S100000x16 : S100000x16.ShapeCasts S100000x16
  inb_S16x7_S16x7_0_0 : ∀ a, (![0, 0] : Fin 2 → Nat) a + S16x7.size a ≤ S16x7.size a
  h_S16x7 : 0 < S16x7.numel
  inb_S100000x7_S100000x7_0_0 : ∀ a, (![0, 0] : Fin 2 → Nat) a + S100000x7.size a ≤ S100000x7.size a
  h_S100000x7 : 0 < S100000x7.numel
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1433_S1433x16_S2000x16_1_0_0_1_n_n_wf : DotDims.WF S2000x1433 S1433x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x16.size a ≤ S1433x16.size a
  hwx0_1 : ∀ i : grid0.Coords, EltTy.bits .f32 = 32 ∨ (Rect.block (s := S1433x16) S1433x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S100000x16.size a ≤ S100000x16.size a
  hwx1_0 : ∀ i : grid1.Coords, EltTy.bits .f32 = 32 ∨ (Rect.block (s := S100000x16) S100000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x7.size a ≤ S16x7.size a
  hwx1_1 : ∀ i : grid1.Coords, EltTy.bits .f32 = 32 ∨ (Rect.block (s := S16x7) S16x7.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S100000x7.size a ≤ S100000x7.size a
  hwx1_2 : ∀ i : grid1.Coords, EltTy.bits .f32 = 32 ∨ (Rect.block (s := S100000x7) S100000x7.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1433_S1433x16_S2000x16_1_0_0_1_n_n : DotDims S2000x1433 S1433x16 S2000x16 where
  lhsContracting := [1]
  rhsContracting := [0]
  lhsNonContracting := [0]
  rhsNonContracting := [1]
  lhsBatch := []
  rhsBatch := []
  wf := dot_S2000x1433_S1433x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1433x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S100000x16.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S100000x7.size cc1_transform_2 reads1_2 true false 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x7 : Shape := ⟨2, ![100000, 7]⟩
abbrev S3300000x7 : Shape := ⟨2, ![3300000, 7]⟩
abbrev S1x7 : Shape := ⟨2, ![1, 7]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S16, .f32⟩
  | .hbm, ⟨4, _⟩ => ⟨S16x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x7, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x7, .f32⟩
  | .hbm, ⟨79, _⟩ => ⟨S3300000x1, .f32⟩
  | .hbm, ⟨80, _⟩ => ⟨S3300000x7, .f32⟩
  | .hbm, ⟨81, _⟩ => ⟨S3300000x7, .f32⟩
  | .hbm, ⟨82, _⟩ => ⟨S_, .f32⟩
  | .hbm, ⟨83, _⟩ => ⟨S100000x7, .f32⟩
  | .hbm, ⟨84, _⟩ => ⟨S3300000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x7, .f32⟩
  | .hbm, ⟨96, _⟩ => ⟨S100000x7, .f32⟩
  | .hbm, ⟨97, _⟩ => ⟨S100000x7, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x7, .f32⟩
  | .hbm, ⟨103, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x7_0_1 : S3300000x1.BroadcastsInDim S3300000x7 (![0, 1] : Fin 2 → Fin S3300000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1433_S1433x16_S100000x16_1_0_0_1_n_n_wf : DotDims.WF S100000x1433 S1433x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x7_S100000x7_1_0_0_1_n_n_wf : DotDims.WF S100000x16 S16x7 S100000x7 [1] [0] [0] [1] [] []
  gather_S100000x7_S3300000x1_S3300000x7_1_0_n_n_0_1_17_wf : GatherDims.WF S100000x7 S3300000x1 S3300000x7 [1] [0] [] [0] [] 1 ![1, 7]
  scatter_S100000x7_S3300000x1_S3300000x7_1_0_0_1_wf : ScatterDims.WF S100000x7 S3300000x1 S3300000x7 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3300000x1_S3300000x7_1_0_n_n_0_1_17 : GatherDims S100000x7 S3300000x1 S3300000x7 where
  offsetDims := [1]
  collapsedSliceDims := [0]
  operandBatchingDims := []
  startIndicesBatchingDims := []
  startIndexMap := [0]
  indexVectorDim := 1
  sliceSizes := ![1, 7]
  wf := gather_S100000x7_S3300000x1_S3300000x7_1_0_n_n_0_1_17_wf
def scatter_S100000x7_S3300000x1_S3300000x7_1_0_0_1 : ScatterDims S100000x7 S3300000x1 S3300000x7 where
  updateWindowDims := [1]
  insertedWindowDims := [0]
  scatterDimsToOperandDims := [0]
  indexVectorDim := 1
  wf := scatter_S100000x7_S3300000x1_S3300000x7_1_0_0_1_wf

class Facts : Prop extends Facts₀ where

variable [Facts]
-- ==== Proof.Spec.lean ====
/-
  The mathematics both programs share, stated once.

  A two-layer graph convolution over N = 100000 nodes and E = 3200000 edges. The edge list gives a source row
  and a target row; each gets the N self loops appended, so every index array below has length E + N. With
  deg(v) the number of entries of `row` equal to v and dinv = deg^(-1/2) where deg > 0 (0 elsewhere), an edge's
  weight is dinv[row] * dinv[col]. A layer takes transformed features h (one row per node), gathers h[col],
  scales each gathered row by its edge's weight, sums the rows that share a `row` entry, and adds a bias. Layer
  one ends in a rectifier, layer two in a row-wise log-softmax.

  The two programs differ only in how the dense products x · W1 and h · W2 are computed, so everything else is
  named here as functions of those products: `conv1` and `conv2`. The products themselves are the plain sums
  `mm1` and `mm2` over the contracted axis, read on the extended reals.
-/
import proofs.«421674_j23587960389982_1_alg».proof.KernelIdeal
import proofs.«421674_j23587960389982_1_alg».proof.Proof.Gen.KernelIdeal
import Idealize.ShloMosaic.PureOps.Ideal
import Idealize.ShloMosaic.Lib.ValueIdx

noncomputable section

namespace Cert.Spec

open Idealize.ShloMosaic Cert.KernelIdeal Cert.KernelIdeal.Facts₀

variable {F : FTy → Type} [FloatOps F]

/-! ## The index arrays -/

/-- The source endpoints followed by the self loops 0 … N-1. -/
def rowOf (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- The target endpoints followed by the self loops 0 … N-1. -/
def colOf (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A node id read as a gather start index: a negative id counts from the end (id + N), and the array becomes a
    column of one-entry index vectors. -/
def wrapIdx (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- deg: ones scatter-added at the source endpoints. -/
def degOf (row : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant (F := F) S_ .f32 0x00000000#32))
    (broadcastInDim S3300000x1 ![0] bcast_S3300000_S3300000x1_0 row)
    (broadcastInDim S3300000 ![] bcast_S_S3300000 (constant (F := F) S_ .f32 0x3F800000#32))

/-- dinv: deg^(-1/2) where deg > 0, else 0. -/
def dinvOf (deg : (⟨S100000, .f32⟩ : BufTy).Contents (Elt F)) : (⟨S100000, .f32⟩ : BufTy).Contents (Elt F) :=
  select (cmpf (F := F) .ogt deg (broadcastInDim S100000 ![] bcast_S_S100000 (constant (F := F) S_ .f32 0x00000000#32)))
    (Host.rsqrt (F := F) deg)
    (broadcastInDim S100000 ![] bcast_S_S100000 (id (constant (F := F) S_ .f32 0x00000000#32)))

/-- The edge weights dinv[row] · dinv[col]. -/
def normOf (row col : (⟨S3300000, .i32⟩ : BufTy).Contents (Elt F)) : (⟨S3300000, .f32⟩ : BufTy).Contents (Elt F) :=
  mulf (Host.gather gather_S100000_S3300000x1_S3300000_n_0_n_n_0_1_1 (dinvOf (degOf row)) (wrapIdx row))
    (Host.gather gather_S100000_S3300000x1_S3300000_n_0_n_n_0_1_1 (dinvOf (degOf row)) (wrapIdx col))

/-! ## Layer one after its dense product -/

/-- Gather h[col], scale each row by its edge weight, sum the rows sharing a source, add the bias, rectify. -/
def conv1 (h : (⟨S100000x16, .f32⟩ : BufTy).Contents (Elt F)) (row col : (⟨S3300000, .i32⟩ : BufTy).Contents (Elt F))
    (nrm : (⟨S3300000, .f32⟩ : BufTy).Contents (Elt F)) (b : (⟨S16, .f32⟩ : BufTy).Contents (Elt F)) :
    (⟨S100000x16, .f32⟩ : BufTy).Contents (Elt F) :=
  maximumf
    (addf
      (Host.scatterAdd scatter_S100000x16_S3300000x1_S3300000x16_1_0_0_1
        (broadcastInDim S100000x16 ![] bcast_S_S100000x16 (constant (F := F) S_ .f32 0x00000000#32))
        (broadcastInDim S3300000x1 ![0] bcast_S3300000_S3300000x1_0 row)
        (mulf (Host.gather gather_S100000x16_S3300000x1_S3300000x16_1_0_n_n_0_1_116 h (wrapIdx col))
          (broadcastInDim S3300000x16 ![0, 1] bcast_S3300000x1_S3300000x16_0_1 (broadcastInDim S3300000x1 ![0] bcast_S3300000_S3300000x1_0 nrm))))
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-! ## Layer two after its dense product -/

/-- The row maximum, floored at -inf. -/
def rowMax (z : (⟨S100000x7, .f32⟩ : BufTy).Contents (Elt F)) : (⟨S100000, .f32⟩ : BufTy).Contents (Elt F) :=
  maximumf (broadcastInDim S100000 ![] bcast_S_S100000 (constant (F := F) S_ .f32 0xFF800000#32))
    (Host.reduce FloatOps.maximumf z (constant (F := F) S_ .f32 0xFF800000#32) reducesTo_S100000x7_S100000_d1 h_S_)

/-- z minus its row maximum. -/
def shifted (z : (⟨S100000x7, .f32⟩ : BufTy).Contents (Elt F)) : (⟨S100000x7, .f32⟩ : BufTy).Contents (Elt F) :=
  subf z (broadcastInDim S100000x7 ![0, 1] bcast_S100000x1_S100000x7_0_1 (broadcastInDim S100000x1 ![0] bcast_S100000_S100000x1_0 (rowMax z)))

/-- Row-wise log-softmax: the shifted row minus the log of the sum of its exponentials. -/
def logSoftmax (z : (⟨S100000x7, .f32⟩ : BufTy).Contents (Elt F)) : (⟨S100000x7, .f32⟩ : BufTy).Contents (Elt F) :=
  subf (shifted z)
    (broadcastInDim S100000x7 ![0, 1] bcast_S100000x1_S100000x7_0_1
      (Host.log (F := F) (broadcastInDim S100000x1 ![0] bcast_S100000_S100000x1_0
        (Host.reduceAdd (Host.exp (F := F) (shifted z)) (constant (F := F) S_ .f32 0x00000000#32) reducesTo_S100000x7_S100000_d1 h_S_))))

/-- Layer two before its log-softmax: gather h[col], scale, sum by source, add the bias. -/
def agg2 (h : (⟨S100000x7, .f32⟩ : BufTy).Contents (Elt F)) (row col : (⟨S3300000, .i32⟩ : BufTy).Contents (Elt F))
    (nrm : (⟨S3300000, .f32⟩ : BufTy).Contents (Elt F)) (b : (⟨S7, .f32⟩ : BufTy).Contents (Elt F)) :
    (⟨S100000x7, .f32⟩ : BufTy).Contents (Elt F) :=
  addf
    (Host.scatterAdd scatter_S100000x7_S3300000x1_S3300000x7_1_0_0_1
      (broadcastInDim S100000x7 ![] bcast_S_S100000x7 (constant (F := F) S_ .f32 0x00000000#32))
      (broadcastInDim S3300000x1 ![0] bcast_S3300000_S3300000x1_0 row)
      (mulf (Host.gather gather_S100000x7_S3300000x1_S3300000x7_1_0_n_n_0_1_17 h (wrapIdx col))
        (broadcastInDim S3300000x7 ![0, 1] bcast_S3300000x1_S3300000x7_0_1 (broadcastInDim S3300000x1 ![0] bcast_S3300000_S3300000x1_0 nrm))))
    (broadcastInDim S100000x7 ![0, 1] bcast_S1x7_S100000x7_0_1 (broadcastInDim S1x7 ![1] bcast_S7_S1x7_1 b))

/-- Layer two: the row-wise log-softmax of its pre-activation. -/
def conv2 (h : (⟨S100000x7, .f32⟩ : BufTy).Contents (Elt F)) (row col : (⟨S3300000, .i32⟩ : BufTy).Contents (Elt F))
    (nrm : (⟨S3300000, .f32⟩ : BufTy).Contents (Elt F)) (b : (⟨S7, .f32⟩ : BufTy).Contents (Elt F)) :
    (⟨S100000x7, .f32⟩ : BufTy).Contents (Elt F) :=
  logSoftmax (agg2 h row col nrm b)

/-- The whole network, given the two dense products as functions. -/
def gcn (p1 : (⟨S100000x1433, .f32⟩ : BufTy).Contents (Elt F) → (⟨S1433x16, .f32⟩ : BufTy).Contents (Elt F) → (⟨S100000x16, .f32⟩ : BufTy).Contents (Elt F))
    (p2 : (⟨S100000x16, .f32⟩ : BufTy).Contents (Elt F) → (⟨S16x7, .f32⟩ : BufTy).Contents (Elt F) → (⟨S100000x7, .f32⟩ : BufTy).Contents (Elt F))
    (x : (⟨S100000x1433, .f32⟩ : BufTy).Contents (Elt F)) (e : (⟨S2x3200000, .i32⟩ : BufTy).Contents (Elt F))
    (w1 : (⟨S1433x16, .f32⟩ : BufTy).Contents (Elt F)) (b1 : (⟨S16, .f32⟩ : BufTy).Contents (Elt F))
    (w2 : (⟨S16x7, .f32⟩ : BufTy).Contents (Elt F)) (b2 : (⟨S7, .f32⟩ : BufTy).Contents (Elt F)) :
    (⟨S100000x7, .f32⟩ : BufTy).Contents (Elt F) :=
  conv2 (p2 (conv1 (p1 x w1) (rowOf e) (colOf e) (normOf (rowOf e) (colOf e)) b1) w2) (rowOf e) (colOf e) (normOf (rowOf e) (colOf e)) b2

/-! ## The dense products as plain sums on the extended reals -/

/-- The operand indices of entry `i` of x · W1 at contraction index `k`: (i₀, k) and (k, i₁). -/
abbrev lidx1 (i : S100000x16.Idx) (k : Fin 1433) : S100000x1433.Idx := fun a => match a with
  | ⟨0, _⟩ => ⟨(i 0).val, (i 0).isLt⟩
  | ⟨1, _⟩ => ⟨k.val, k.isLt⟩
abbrev ridx1 (i : S100000x16.Idx) (k : Fin 1433) : S1433x16.Idx := fun a => match a with
  | ⟨0, _⟩ => ⟨k.val, k.isLt⟩
  | ⟨1, _⟩ => ⟨(i 1).val, (i 1).isLt⟩

/-- x · W1, entry by entry. -/
def mm1 (x : FVec Ideal S100000x1433 .f32) (w : FVec Ideal S1433x16 .f32) : FVec Ideal S100000x16 .f32 :=
  fun i => ∑ k : Fin 1433, x (lidx1 i k) * w (ridx1 i k)

/-- The operand indices of entry `i` of h · W2 at contraction index `k`: (i₀, k) and (k, i₁). -/
abbrev lidx2 (i : S100000x7.Idx) (k : Fin 16) : S100000x16.Idx := fun a => match a with
  | ⟨0, _⟩ => ⟨(i 0).val, (i 0).isLt⟩
  | ⟨1, _⟩ => ⟨k.val, k.isLt⟩
abbrev ridx2 (i : S100000x7.Idx) (k : Fin 16) : S16x7.Idx := fun a => match a with
  | ⟨0, _⟩ => ⟨k.val, k.isLt⟩
  | ⟨1, _⟩ => ⟨(i 1).val, (i 1).isLt⟩

/-- h · W2, entry by entry. -/
def mm2 (h : FVec Ideal S100000x16 .f32) (w : FVec Ideal S16x7 .f32) : FVec Ideal S100000x7 .f32 :=
  fun i => ∑ k : Fin 16, h (lidx2 i k) * w (ridx2 i k)

end Cert.Spec

end
-- ==== Proof.LibCastSame.lean ====
/-
  A general fact about transport along an equation between a type and itself.
-/

namespace Cert.Lib

/-- `cast_same`: a transport along an equation between a type and ITSELF does nothing, `cast h a = a` for
    `h : α = α`. It is core's `cast_eq` with a proof that is not by reflexivity: a simplifier that rewrites with it
    records an explicit step, where rewriting with a reflexivity lemma leaves an unfolding for the type checker to
    redo. That matters when the transported term holds a function defined by a fold over a very long index list
    (a host reduction over a full-size array): re-checking the unfolding there can evaluate the fold. -/
theorem cast_same {α : Sort _} (h : α = α) (a : α) : cast h a = a := eq_of_heq (cast_heq h a)

end Cert.Lib
-- ==== Proof.KernelRead.lean ====
/-
  The idealized kernel program's result, read back through its host stretches.

  Between the launch and the return the program's buffer contents pass nine boundaries. Before the first dense
  product the host computes, from the edge list alone, the source and target index arrays and the edge weights;
  between the two products it aggregates layer one; after the second it aggregates layer two and takes the
  log-softmax. Each stretch is read here as the function of `Spec` it computes, applied to what the stretch
  found in the buffers it reads; a buffer a stretch does not write is carried over unchanged.
-/
import proofs.«421674_j23587960389982_1_alg».proof.Proof.Spec
import proofs.«421674_j23587960389982_1_alg».proof.Proof.Gen.KernelIdeal.Frame
import proofs.«421674_j23587960389982_1_alg».proof.Proof.LibCastSame
import Idealize.ShloMosaic.Lib.StableHlo.Run

set_option maxRecDepth 16384

noncomputable section

namespace Cert.KernelIdeal.Read

open Cert.KernelIdeal Cert.KernelIdeal.Gen Cert.Spec
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer read through a line of operations, one operation at a time: at the operation that writes it, that
    operation's function of what its operands held; at any other operation, what the buffer held before. Used for the
    reads that sit inside the operand list of a concatenate. -/
macro "after_rest" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## Before the first product: the index arrays and the edge weights -/

/-- The three stretches before the first product, from contents `W`. -/
abbrev pre (W : Valuation τ sig (Elt F)) : Valuation τ sig (Elt F) :=
  after hostOps0_2 (after hostOps0_1 (after hostOps0 W))

/-- The source index array is the edge list's first row followed by the self loops. -/
theorem pre_row (W : Valuation τ sig (Elt F)) :
    pre W (Proc.devRef .tc main_v3) = rowOf (W (Proc.devRef .tc main_arg1)) := by
  dsimp only [pre, hostOps0, hostOps0_1, hostOps0_2]
  after_results_simp
  after_rest
  rfl

/-- The target index array is the edge list's second row followed by the self loops. -/
theorem pre_col (W : Valuation τ sig (Elt F)) :
    pre W (Proc.devRef .tc main_v6) = colOf (W (Proc.devRef .tc main_arg1)) := by
  dsimp only [pre, hostOps0, hostOps0_1, hostOps0_2]
  after_results_simp
  after_rest
  rfl

/-- The edge weights are dinv[row] · dinv[col] of those two arrays. -/
theorem pre_nrm (W : Valuation τ sig (Elt F)) :
    pre W (Proc.devRef .tc main_v29)
      = normOf (rowOf (W (Proc.devRef .tc main_arg1))) (colOf (W (Proc.devRef .tc main_arg1))) := by
  dsimp only [pre, hostOps0, hostOps0_1, hostOps0_2]
  after_results_simp
  after_rest
  try simp only [TRef.ofBuf, TRef.toBuf, Cert.Lib.cast_same]
  try rfl

theorem pre_main_arg0 (W : Valuation τ sig (Elt F)) :
    pre W (Proc.devRef .tc main_arg0) = W (Proc.devRef .tc main_arg0) := by
  dsimp only [pre, hostOps0, hostOps0_1, hostOps0_2]
  after_results_simp

theorem pre_main_arg2 (W : Valuation τ sig (Elt F)) :
    pre W (Proc.devRef .tc main_arg2) = W (Proc.devRef .tc main_arg2) := by
  dsimp only [pre, hostOps0, hostOps0_1, hostOps0_2]
  after_results_simp

theorem pre_main_arg3 (W : Valuation τ sig (Elt F)) :
    pre W (Proc.devRef .tc main_arg3) = W (Proc.devRef .tc main_arg3) := by
  dsimp only [pre, hostOps0, hostOps0_1, hostOps0_2]
  after_results_simp

theorem pre_main_arg4 (W : Valuation τ sig (Elt F)) :
    pre W (Proc.devRef .tc main_arg4) = W (Proc.devRef .tc main_arg4) := by
  dsimp only [pre, hostOps0, hostOps0_1, hostOps0_2]
  after_results_simp

theorem pre_main_arg5 (W : Valuation τ sig (Elt F)) :
    pre W (Proc.devRef .tc main_arg5) = W (Proc.devRef .tc main_arg5) := by
  dsimp only [pre, hostOps0, hostOps0_1, hostOps0_2]
  after_results_simp

/-! ## Between the products: layer one's aggregation -/

/-- The two stretches between the products, from contents `W`. -/
abbrev mid (W : Valuation τ sig (Elt F)) : Valuation τ sig (Elt F) :=
  after hostOps1_1 (after hostOps1 W)

/-- Layer one's output is `conv1` of the first product and the index arrays, weights and bias the stretch finds. -/
theorem mid_out (W : Valuation τ sig (Elt F)) :
    mid W (Proc.devRef .tc main_v47)
      = conv1 (W (Proc.devRef .tc main_v30)) (W (Proc.devRef .tc main_v3)) (W (Proc.devRef .tc main_v6))
          (W (Proc.devRef .tc main_v29)) (W (Proc.devRef .tc main_arg3)) := by
  dsimp only [mid, hostOps1, hostOps1_1]
  after_results_simp
  try simp only [TRef.ofBuf, TRef.toBuf, Cert.Lib.cast_same]
  try rfl

theorem mid_main_v3 (W : Valuation τ sig (Elt F)) :
    mid W (Proc.devRef .tc main_v3) = W (Proc.devRef .tc main_v3) := by
  dsimp only [mid, hostOps1, hostOps1_1]
  after_results_simp

theorem mid_main_v6 (W : Valuation τ sig (Elt F)) :
    mid W (Proc.devRef .tc main_v6) = W (Proc.devRef .tc main_v6) := by
  dsimp only [mid, hostOps1, hostOps1_1]
  after_results_simp

theorem mid_main_v29 (W : Valuation τ sig (Elt F)) :
    mid W (Proc.devRef .tc main_v29) = W (Proc.devRef .tc main_v29) := by
  dsimp only [mid, hostOps1, hostOps1_1]
  after_results_simp

theorem mid_main_arg4 (W : Valuation τ sig (Elt F)) :
    mid W (Proc.devRef .tc main_arg4) = W (Proc.devRef .tc main_arg4) := by
  dsimp only [mid, hostOps1, hostOps1_1]
  after_results_simp

theorem mid_main_arg5 (W : Valuation τ sig (Elt F)) :
    mid W (Proc.devRef .tc main_arg5) = W (Proc.devRef .tc main_arg5) := by
  dsimp only [mid, hostOps1, hostOps1_1]
  after_results_simp

/-! ## After the second product: layer two's aggregation and the log-softmax -/

/-- The two stretches after the second product, from contents `W`. -/
abbrev tail (W : Valuation τ sig (Elt F)) : Valuation τ sig (Elt F) :=
  after hostOps2_1 (after hostOps2 W)

/-- The aggregation stretch leaves layer two's pre-activation: `agg2` of the second product and the index arrays,
    weights and bias the stretch finds. -/
theorem agg_out (W : Valuation τ sig (Elt F)) :
    after hostOps2 W (Proc.devRef .tc main_v64)
      = agg2 (W (Proc.devRef .tc main_v48)) (W (Proc.devRef .tc main_v3)) (W (Proc.devRef .tc main_v6))
          (W (Proc.devRef .tc main_v29)) (W (Proc.devRef .tc main_arg5)) := by
  dsimp only [hostOps2]
  after_results_simp
  rfl

/-- The last stretch is the row-wise log-softmax of the pre-activation it finds. -/
theorem lsm_out (W : Valuation τ sig (Elt F)) :
    after hostOps2_1 W (Proc.devRef .tc main_v65) = logSoftmax (W (Proc.devRef .tc main_v64)) := by
  dsimp only [hostOps2_1]
  after_results_simp
  try simp only [TRef.ofBuf, TRef.toBuf, Cert.Lib.cast_same]
  try rfl

/-- The result is `conv2` of the second product and the index arrays, weights and bias the stretches find. -/
theorem tail_out (W : Valuation τ sig (Elt F)) :
    tail W (Proc.devRef .tc main_v65)
      = conv2 (W (Proc.devRef .tc main_v48)) (W (Proc.devRef .tc main_v3)) (W (Proc.devRef .tc main_v6))
          (W (Proc.devRef .tc main_v29)) (W (Proc.devRef .tc main_arg5)) := by
  show after hostOps2_1 (after hostOps2 W) (Proc.devRef .tc main_v65) = _
  rw [lsm_out, agg_out]
  rfl

end Cert.KernelIdeal.Read

end
-- ==== Proof.Region0.lean ====
/-
  Region 0: the dense product x · W1 computed block by block.

  The grid has 50 points. Point t reads the row block x[2000 t … 2000 t + 1999, 0 … 1432] and all of W1 [1433, 16],
  multiplies them into a zero accumulator, and writes the [2000, 16] product back into rows 2000 t … 2000 t + 1999
  of the [100000, 16] result. On the extended reals the entry (r, c) of a block's product is the sum over k < 1433
  of block(r, k) · W1(k, c), and block(r, k) is x(2000 t + r, k): so what point t writes back is exactly the rows
  2000 t … of the whole product, whose entry (i₀, i₁) is the sum over k of x(i₀, k) · W1(k, i₁). The 50 row blocks
  tile the 100000 rows (row r lies in the block of point r / 2000), so after the region the result array is the
  whole product.
-/
import proofs.«421674_j23587960389982_1_alg».proof.Proof.Spec
import proofs.«421674_j23587960389982_1_alg».proof.Proof.Gen.KernelIdeal.Frame
import Idealize.ShloMosaic.Lib.Pipeline.Value
import Idealize.ShloMosaic.Lib.ValueIdx
import Idealize.ShloMosaic.PureOps.Ideal.Laws

noncomputable section

namespace Cert.KernelIdeal.Regions

open Idealize.ShloMosaic Idealize.ShloMosaic.TcCoe Idealize.SL.Sem Cert.KernelIdeal Cert.KernelIdeal.Gen

/-! ## One block's product, entry by entry

The body multiplies a [2000, 1433] block of x by all of W1 [1433, 16] into a zero accumulator. Read at the entry
(r, c) of the [2000, 16] result this is the sum over k < 1433 of block(r, k) · W1(k, c). -/

/-- The left operand's index at result entry `j` and contraction index `q`: its row is the result's row, -/
theorem lhs_block_row (j : S2000x16.Idx) (q : dot_S2000x1433_S1433x16_S2000x16_1_0_0_1_n_n.contr.Idx) :
    (dot_S2000x1433_S1433x16_S2000x16_1_0_0_1_n_n.lhsIdx j q 0).val = (j 0).val := by
  unfold DotDims.lhsIdx
  rw [dif_neg (show ¬(0 : Fin S2000x1433.rank) ∈ dot_S2000x1433_S1433x16_S2000x16_1_0_0_1_n_n.lhsBatch by decide), dif_pos (show (0 : Fin S2000x1433.rank) ∈ dot_S2000x1433_S1433x16_S2000x16_1_0_0_1_n_n.lhsNonContracting by decide)]
  rfl
/-- and its column is the contraction index. -/
theorem lhs_block_col (j : S2000x16.Idx) (q : dot_S2000x1433_S1433x16_S2000x16_1_0_0_1_n_n.contr.Idx) :
    (dot_S2000x1433_S1433x16_S2000x16_1_0_0_1_n_n.lhsIdx j q 1).val = (q ⟨0, by decide⟩).val :=
  dot_S2000x1433_S1433x16_S2000x16_1_0_0_1_n_n.lhsIdx_val_of_single rfl j q
/-- The right operand's index: its row is the contraction index, -/
theorem rhs_block_row (j : S2000x16.Idx) (q : dot_S2000x1433_S1433x16_S2000x16_1_0_0_1_n_n.contr.Idx) :
    (dot_S2000x1433_S1433x16_S2000x16_1_0_0_1_n_n.rhsIdx j q 0).val = (q ⟨0, by decide⟩).val :=
  dot_S2000x1433_S1433x16_S2000x16_1_0_0_1_n_n.rhsIdx_val_of_single rfl j q
/-- and its column is the result's column. -/
theorem rhs_block_col (j : S2000x16.Idx) (q : dot_S2000x1433_S1433x16_S2000x16_1_0_0_1_n_n.contr.Idx) :
    (dot_S2000x1433_S1433x16_S2000x16_1_0_0_1_n_n.rhsIdx j q 1).val = (j 1).val := by
  unfold DotDims.rhsIdx
  rw [dif_neg (show ¬(1 : Fin S1433x16.rank) ∈ dot_S2000x1433_S1433x16_S2000x16_1_0_0_1_n_n.rhsBatch by decide), dif_pos (show (1 : Fin S1433x16.rank) ∈ dot_S2000x1433_S1433x16_S2000x16_1_0_0_1_n_n.rhsNonContracting by decide)]
  rfl

/-- The operand indices of entry `j` of a block's product at contraction index `k`: (j₀, k) and (k, j₁). -/
abbrev lidxBlock (j : S2000x16.Idx) (k : Fin 1433) : S2000x1433.Idx := fun a => match a with
  | ⟨0, _⟩ => ⟨(j 0).val, (j 0).isLt⟩
  | ⟨1, _⟩ => ⟨k.val, k.isLt⟩
abbrev ridxBlock (j : S2000x16.Idx) (k : Fin 1433) : S1433x16.Idx := fun a => match a with
  | ⟨0, _⟩ => ⟨k.val, k.isLt⟩
  | ⟨1, _⟩ => ⟨(j 1).val, (j 1).isLt⟩

/-- The body's payload at an entry: the plain sum over the contracted axis. -/
theorem block_product_apply (x0 : Vec Ideal S2000x1433 .f32) (x1 : Vec Ideal S1433x16 .f32) (j : S2000x16.Idx) :
    k0_pay1 (F := Ideal) x0 x1 j = ∑ k : Fin 1433, x0 (lidxBlock j k) * x1 (ridxBlock j k) := by
  unfold k0_pay1
  refine (Ideal.matmul_constant_zero_apply dot_S2000x1433_S1433x16_S2000x16_1_0_0_1_n_n none x0 x1 j).trans ?_
  rw [← Equiv.sum_comp (ValueIdx.contrEquiv1 dot_S2000x1433_S1433x16_S2000x16_1_0_0_1_n_n 1433 rfl rfl).symm]
  refine Finset.sum_congr rfl fun k _ => ?_
  have hk := ValueIdx.contrEquiv1_symm_val dot_S2000x1433_S1433x16_S2000x16_1_0_0_1_n_n 1433 rfl rfl k
  have el : dot_S2000x1433_S1433x16_S2000x16_1_0_0_1_n_n.lhsIdx j ((ValueIdx.contrEquiv1 dot_S2000x1433_S1433x16_S2000x16_1_0_0_1_n_n 1433 rfl rfl).symm k) = lidxBlock j k := funext fun a => Fin.ext (by
    match a with
    | ⟨0, _⟩ => exact lhs_block_row _ _
    | ⟨1, _⟩ => exact (lhs_block_col _ _).trans hk)
  have er : dot_S2000x1433_S1433x16_S2000x16_1_0_0_1_n_n.rhsIdx j ((ValueIdx.contrEquiv1 dot_S2000x1433_S1433x16_S2000x16_1_0_0_1_n_n 1433 rfl rfl).symm k) = ridxBlock j k := funext fun a => Fin.ext (by
    match a with
    | ⟨0, _⟩ => exact (rhs_block_row _ _).trans hk
    | ⟨1, _⟩ => exact rhs_block_col _ _)
  rw [el, er]

/-! ## What a grid point writes back

Point t of the 50 loads rows 2000 t … 2000 t + 1999 of x and all of W1, and stores the block's product into the same
rows of the result. -/

theorem zero_offsets : (![0, 0] : Fin 2 → Nat) = fun _ => 0 := funext fun a => by fin_cases a <;> rfl

/-- The index maps over the grid: the block of x moves with the result's block along the rows and stays at column
    block 0; W1's block never moves; the result's block at point t is row block t, column block 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the whole product x · W1. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Spec.mm1 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S2000x1433) zero_offsets, View.ld_unit_zero (S := S1433x16) zero_offsets]
  funext y
  show k0_pay1 (F := Ideal) (iblk0 V c 0 t) (iblk0 V c 1 t) y
      = Cert.Spec.mm1 (V c main_arg0) (V c main_arg2) (((cfg0.win 2).blk t).view.emb y)
  refine (block_product_apply (iblk0 V c 0 t) (iblk0 V c 1 t) y).trans ?_
  obtain ⟨e0, e1, e2, e3, e4, e5⟩ := index_facts t
  unfold Cert.Spec.mm1
  refine Finset.sum_congr rfl fun k _ => ?_
  have hl : iblk0 V c 0 t (lidxBlock y k)
      = V c main_arg0 (Cert.Spec.lidx1 (((cfg0.win 2).blk t).view.emb y) k) := by
    show V c main_arg0 (((cfg0.win 0).blk t).view.emb (lidxBlock y k)) = _
    refine congrArg (V c main_arg0) ?_
    funext a; apply Fin.ext
    match a with
    | ⟨0, _⟩ =>
      show win0_0.index t (0 : Fin 2) * 2000 + 1 * (y 0).val = win0_2.index t (0 : Fin 2) * 2000 + 1 * (y 0).val
      omega
    | ⟨1, _⟩ =>
      show win0_0.index t (1 : Fin 2) * 1433 + 1 * k.val = k.val
      omega
  have hr : iblk0 V c 1 t (ridxBlock y k)
      = V c main_arg2 (Cert.Spec.ridx1 (((cfg0.win 2).blk t).view.emb y) k) := by
    show V c main_arg2 (((cfg0.win 1).blk t).view.emb (ridxBlock y k)) = _
    refine congrArg (V c main_arg2) ?_
    funext a; apply Fin.ext
    match a with
    | ⟨0, _⟩ =>
      show win0_1.index t (0 : Fin 2) * 1433 + 1 * k.val = k.val
      omega
    | ⟨1, _⟩ =>
      show win0_1.index t (1 : Fin 2) * 16 + 1 * (y 1).val = win0_2.index t (1 : Fin 2) * 16 + 1 * (y 1).val
      omega
  rw [hl, hr]

/-! ## The blocks tile the result -/

/-- An index of the result lies in point `t`'s block iff each coordinate lies in the block's range on its axis. -/
theorem mem_block (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Every index of the result is written back by some point: row r lies in the block of point r / 2000. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 2000 :=
    ⟨⟨(i 0).val / 2000, by show (i 0).val / 2000 < 50; omega⟩, rfl⟩
  refine ⟨t, flush0_2 t, ?_⟩
  rw [mem_block]
  obtain ⟨e0, e1, e2, e3, e4, e5⟩ := index_facts t
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 16 ≤ (i 1).val ∧ (i 1).val < win0_2.index t (1 : Fin 2) * 16 + 16
    omega

/-! ## The array after the region -/

/-- After the 50 write-backs the result array holds x · W1, the plain sum over the contracted axis at every entry. -/
theorem region0 (V : (c : Dev nD) → (b : Ref sig .tc) → Buf (Elt Ideal) ((c : Thread nD τ).loc b)) (c : Dev nD) :
    (dat0 (F := Ideal) V c).arrAt 2 cfg0.N = Cert.Spec.mm1 (V c main_arg0) (V c main_arg2) :=
  (dat0 (F := Ideal) V c).arrAt_eq_of_cover 2 (Cert.Spec.mm1 (V c main_arg0) (V c main_arg2))
    (fun t _ => flushed_eq V c t) covered

end Cert.KernelIdeal.Regions

end
-- ==== Proof.Region1.lean ====
/-
  Region 1 of the kernel program: the dense product h · W2 as one block.

  The grid has one point; each of the three windows is its whole array ([100000,16], [16,7] in, [100000,7] out).
  The body loads both operands whole, multiplies them into a zero accumulator and stores the product whole. So
  what the one point writes back is the plain sum over the contracted axis at every index of the output array,
  and since the one block is the whole array, the array ends holding exactly that sum: `Cert.Spec.mm2`.
-/
import proofs.«421674_j23587960389982_1_alg».proof.Proof.Spec
import proofs.«421674_j23587960389982_1_alg».proof.Proof.Gen.KernelIdeal.Frame
import Idealize.ShloMosaic.Lib.Pipeline.Value
import Idealize.ShloMosaic.Lib.ValueIdx
import Idealize.ShloMosaic.PureOps.Ideal.Laws

noncomputable section
namespace Cert.KernelIdeal.Regions
open Idealize.ShloMosaic Idealize.ShloMosaic.TcCoe Idealize.SL.Sem Cert.KernelIdeal Cert.KernelIdeal.Gen

/-! ## The product's operand indices, coordinate by coordinate -/

/-- Row coordinate of the left operand's index: the output's row. -/
theorem lhs_hW2_0 (i : S100000x7.Idx) (q : dot_S100000x16_S16x7_S100000x7_1_0_0_1_n_n.contr.Idx) :
    (dot_S100000x16_S16x7_S100000x7_1_0_0_1_n_n.lhsIdx i q 0).val = (i 0).val := by
  unfold DotDims.lhsIdx
  rw [dif_neg (show ¬(0 : Fin S100000x16.rank) ∈ dot_S100000x16_S16x7_S100000x7_1_0_0_1_n_n.lhsBatch by decide), dif_pos (show (0 : Fin S100000x16.rank) ∈ dot_S100000x16_S16x7_S100000x7_1_0_0_1_n_n.lhsNonContracting by decide)]
  rfl
/-- Column coordinate of the left operand's index: the contraction index. -/
theorem lhs_hW2_1 (i : S100000x7.Idx) (q : dot_S100000x16_S16x7_S100000x7_1_0_0_1_n_n.contr.Idx) :
    (dot_S100000x16_S16x7_S100000x7_1_0_0_1_n_n.lhsIdx i q 1).val = (q ⟨0, by decide⟩).val :=
  dot_S100000x16_S16x7_S100000x7_1_0_0_1_n_n.lhsIdx_val_of_single rfl i q
/-- Row coordinate of the right operand's index: the contraction index. -/
theorem rhs_hW2_0 (i : S100000x7.Idx) (q : dot_S100000x16_S16x7_S100000x7_1_0_0_1_n_n.contr.Idx) :
    (dot_S100000x16_S16x7_S100000x7_1_0_0_1_n_n.rhsIdx i q 0).val = (q ⟨0, by decide⟩).val :=
  dot_S100000x16_S16x7_S100000x7_1_0_0_1_n_n.rhsIdx_val_of_single rfl i q
/-- Column coordinate of the right operand's index: the output's column. -/
theorem rhs_hW2_1 (i : S100000x7.Idx) (q : dot_S100000x16_S16x7_S100000x7_1_0_0_1_n_n.contr.Idx) :
    (dot_S100000x16_S16x7_S100000x7_1_0_0_1_n_n.rhsIdx i q 1).val = (i 1).val := by
  unfold DotDims.rhsIdx
  rw [dif_neg (show ¬(1 : Fin S16x7.rank) ∈ dot_S100000x16_S16x7_S100000x7_1_0_0_1_n_n.rhsBatch by decide), dif_pos (show (1 : Fin S16x7.rank) ∈ dot_S100000x16_S16x7_S100000x7_1_0_0_1_n_n.rhsNonContracting by decide)]
  rfl

/-! ## The body's payload at an index -/

/-- The payload of whole operands `x0`, `x1`, read at `i`, is the sum over k of x0 (i₀, k) · x1 (k, i₁): the
    left operand's shape cast is to its own shape, the accumulator is the zero splat, and the one-axis
    contraction index is a number below 16. -/
theorem hW2_pay_apply (x0 : Vec Ideal S100000x16 .f32) (x1 : Vec Ideal S16x7 .f32) (i : S100000x7.Idx) :
    k1_pay1 (F := Ideal) x0 x1 i = ∑ k : Fin 16, x0 (Cert.Spec.lidx2 i k) * x1 (Cert.Spec.ridx2 i k) := by
  unfold k1_pay1
  rw [shapeCast_self]
  refine (Ideal.matmul_constant_zero_apply dot_S100000x16_S16x7_S100000x7_1_0_0_1_n_n none x0 x1 i).trans ?_
  rw [← Equiv.sum_comp (ValueIdx.contrEquiv1 dot_S100000x16_S16x7_S100000x7_1_0_0_1_n_n 16 rfl rfl).symm]
  refine Finset.sum_congr rfl fun k _ => ?_
  have hk := ValueIdx.contrEquiv1_symm_val dot_S100000x16_S16x7_S100000x7_1_0_0_1_n_n 16 rfl rfl k
  have el : dot_S100000x16_S16x7_S100000x7_1_0_0_1_n_n.lhsIdx i ((ValueIdx.contrEquiv1 dot_S100000x16_S16x7_S100000x7_1_0_0_1_n_n 16 rfl rfl).symm k) = Cert.Spec.lidx2 i k := funext fun a => Fin.ext (by
    match a with
    | ⟨0, _⟩ => exact lhs_hW2_0 _ _
    | ⟨1, _⟩ => exact (lhs_hW2_1 _ _).trans hk)
  have er : dot_S100000x16_S16x7_S100000x7_1_0_0_1_n_n.rhsIdx i ((ValueIdx.contrEquiv1 dot_S100000x16_S16x7_S100000x7_1_0_0_1_n_n 16 rfl rfl).symm k) = Cert.Spec.ridx2 i k := funext fun a => Fin.ext (by
    match a with
    | ⟨0, _⟩ => exact (rhs_hW2_0 _ _).trans hk
    | ⟨1, _⟩ => exact rhs_hW2_1 _ _)
  rw [el, er]

/-! ## From the one block to the array -/

/-- The zero offsets of a whole-array access, however spelt. -/
theorem hW2_zero_offsets : (![0, 0] : Fin 2 → Nat) = fun _ => 0 := funext fun a => by fin_cases a <;> rfl

/-- The windows' index maps at the grid's one point: every window's block index is 0 on both axes. -/
theorem hW2_index_zero : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

/-- The left operand's block is the whole array h: its block index is 0 on both axes, so entry `y` of the block is
    entry (0 · 100000 + y₀, 0 · 16 + y₁) = `y` of the array. -/
theorem hW2_lhs_block_apply (V : (c : Dev nD) → (b : Ref sig .tc) → Buf (Elt Ideal) ((c : Thread nD τ).loc b)) (c : Dev nD)
    (t : Fin cfg1.N) (y : S100000x16.Idx) :
    (iblk1 V c 0 t : Vec Ideal S100000x16 .f32) y = (V c main_v47 : FVec Ideal S100000x16 .f32) y := by
  obtain ⟨e0, e1, -, -, -, -⟩ := hW2_index_zero t
  show V c main_v47 (((cfg1.win 0).blk t).view.emb y) = V c main_v47 y
  refine congrArg (V c main_v47) (funext fun a => Fin.ext ?_)
  match a with
  | ⟨0, _⟩ => show win1_0.index t (0 : Fin 2) * 100000 + 1 * (y 0).val = (y 0).val; omega
  | ⟨1, _⟩ => show win1_0.index t (1 : Fin 2) * 16 + 1 * (y 1).val = (y 1).val; omega

/-- The right operand's block is the whole array W2, likewise. -/
theorem hW2_rhs_block_apply (V : (c : Dev nD) → (b : Ref sig .tc) → Buf (Elt Ideal) ((c : Thread nD τ).loc b)) (c : Dev nD)
    (t : Fin cfg1.N) (y : S16x7.Idx) :
    (iblk1 V c 1 t : Vec Ideal S16x7 .f32) y = (V c main_arg4 : FVec Ideal S16x7 .f32) y := by
  obtain ⟨-, -, e0, e1, -, -⟩ := hW2_index_zero t
  show V c main_arg4 (((cfg1.win 1).blk t).view.emb y) = V c main_arg4 y
  refine congrArg (V c main_arg4) (funext fun a => Fin.ext ?_)
  match a with
  | ⟨0, _⟩ => show win1_1.index t (0 : Fin 2) * 16 + 1 * (y 0).val = (y 0).val; omega
  | ⟨1, _⟩ => show win1_1.index t (1 : Fin 2) * 7 + 1 * (y 1).val = (y 1).val; omega

/-- Entry `y` of the output's block is entry `y` of the output array. -/
theorem hW2_out_block_emb (t : Fin cfg1.N) (y : S100000x7.Idx) :
    (((cfg1.win 2).blk t).view.emb y : S100000x7.Idx) = y := by
  obtain ⟨-, -, -, -, e0, e1⟩ := hW2_index_zero t
  refine funext fun a => Fin.ext ?_
  match a with
  | ⟨0, _⟩ => show win1_2.index t (0 : Fin 2) * 100000 + 1 * (y 0).val = (y 0).val; omega
  | ⟨1, _⟩ => show win1_2.index t (1 : Fin 2) * 7 + 1 * (y 1).val = (y 1).val; omega

/-- What the one point writes back is its block of the product h · W2. -/
theorem hW2_flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (Cert.Spec.mm2 (V c main_v47) (V c main_arg4)) := by
  show (cfg1.win 2).cut (grid1.coords t) ((dat1 V c).after 2 t) = _
  rw [after1_2]
  unfold out1_2
  rw [View.canon_unit_zero hW2_zero_offsets]
  simp only [View.ld_unit_zero (S := S100000x16) hW2_zero_offsets, View.ld_unit_zero (S := S16x7) hW2_zero_offsets]
  funext j
  refine (hW2_pay_apply (iblk1 V c 0 t) (iblk1 V c 1 t) j).trans ?_
  show _ = Cert.Spec.mm2 (V c main_v47) (V c main_arg4) (((cfg1.win 2).blk t).view.emb j)
  rw [hW2_out_block_emb t j]
  unfold Cert.Spec.mm2
  refine Finset.sum_congr rfl fun k _ => ?_
  rw [hW2_lhs_block_apply V c t, hW2_rhs_block_apply V c t]

/-- An index of the output array is in the point's block iff each coordinate is in the block's range on its axis. -/
theorem hW2_mem_out_block (t : Fin cfg1.N) (i : S100000x7.Idx) :
    i ∈ ((cfg1.win 2).blk t).view.set ↔ ∀ a : Fin 2, win1_2.index t a * S100000x7.size a ≤ (i a).val ∧ (i a).val < win1_2.index t a * S100000x7.size a + S100000x7.size a := by
  show i ∈ ((View.whole main_v48).slice (win1_2.rect t)).set ↔ _
  rw [View.set_slice_whole, Rect.mem_set_unit]
  exact Iff.rfl

/-- The one point's block is the whole output array: rows 0 … 99999 and columns 0 … 6, which is every index. -/
theorem hW2_out_covered (i : S100000x7.Idx) :
    ∃ t : Fin cfg1.N, (cfg1.win 2).flush t = true ∧ i ∈ ((cfg1.win 2).blk t).view.set := by
  refine ⟨t1_0, flush1_2 t1_0, ?_⟩
  rw [hW2_mem_out_block]
  obtain ⟨-, -, -, -, e0, e1⟩ := hW2_index_zero t1_0
  have h0 : (i 0).val < 100000 := (i 0).isLt
  have h1 : (i 1).val < 7 := (i 1).isLt
  intro a
  match a with
  | ⟨0, _⟩ => show win1_2.index t1_0 (0 : Fin 2) * 100000 ≤ (i 0).val ∧ (i 0).val < win1_2.index t1_0 (0 : Fin 2) * 100000 + 100000; omega
  | ⟨1, _⟩ => show win1_2.index t1_0 (1 : Fin 2) * 7 ≤ (i 1).val ∧ (i 1).val < win1_2.index t1_0 (1 : Fin 2) * 7 + 7; omega

/-! ## The array after the region -/

/-- After the region's write-back the output array holds the product h · W2, entry by entry the plain sum over the
    contracted axis: the one point writes its block of that product, and its block is the whole array. -/
theorem region1 (V : (c : Dev nD) → (b : Ref sig .tc) → Buf (Elt Ideal) ((c : Thread nD τ).loc b)) (c : Dev nD) :
    (dat1 (F := Ideal) V c).arrAt 2 cfg1.N = Cert.Spec.mm2 (V c main_v47) (V c main_arg4) :=
  (dat1 V c).arrAt_eq_of_cover 2 (Cert.Spec.mm2 (V c main_v47) (V c main_arg4)) (fun t _ => hW2_flushed_eq V c t) hW2_out_covered

end Cert.KernelIdeal.Regions
end
-- ==== Proof.KernelValue.lean ====
/-
  The idealized kernel program's result as one function of its arguments.

  Reading the boundaries backwards from the return: the last stretches apply layer two's aggregation and the
  log-softmax to what the second region left; that region leaves h · W2 as the plain sum over k and touches nothing
  else the later stretches read; the middle stretches apply layer one's aggregation and the rectifier to what the
  first region left; that region leaves x · W1; and the first stretches build the index arrays and the edge weights
  from the edge list and leave the arguments alone. Composed, the result buffer holds `Spec.gcn` at the two sums.
-/
import proofs.«421674_j23587960389982_1_alg».proof.Proof.KernelRead
import proofs.«421674_j23587960389982_1_alg».proof.Proof.Region0
import proofs.«421674_j23587960389982_1_alg».proof.Proof.Region1

set_option maxRecDepth 16384

noncomputable section

namespace Cert.KernelIdeal.Result

open Cert.KernelIdeal Cert.KernelIdeal.Gen Cert.KernelIdeal.Read Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The kernel program's result buffer at the return: the network of `Spec` with the two products as plain sums. Read
    backwards: the last stretches give `conv2` of what region 1 left; region 1 leaves `mm2` of layer one's output and W2,
    everything else as it was; the middle stretches give `conv1` of what region 0 left; region 0 leaves `mm1` of x and
    W1; and the first stretches give the index arrays and edge weights from the edge list, the arguments untouched. -/
theorem result (c : Dev nD) :
    W9 m ρ c (Proc.devRef .tc main_v65)
      = gcn (F := Ideal) mm1 mm2 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- region 1's exit
  have h48 : W7 m ρ c (Proc.devRef .tc main_v48)
      = mm2 (W6 m ρ c (Proc.devRef .tc main_v47)) (W6 m ρ c (Proc.devRef .tc main_arg4)) :=
    (W7_arr m ρ c 2).trans (Cert.KernelIdeal.Regions.region1 (V6 m ρ) c)
  have h7_3 : W7 m ρ c (Proc.devRef .tc main_v3) = W6 m ρ c (Proc.devRef .tc main_v3) := W7_of_ne m ρ c main_v3 (by decide)
  have h7_6 : W7 m ρ c (Proc.devRef .tc main_v6) = W6 m ρ c (Proc.devRef .tc main_v6) := W7_of_ne m ρ c main_v6 (by decide)
  have h7_29 : W7 m ρ c (Proc.devRef .tc main_v29) = W6 m ρ c (Proc.devRef .tc main_v29) := W7_of_ne m ρ c main_v29 (by decide)
  have h7_a5 : W7 m ρ c (Proc.devRef .tc main_arg5) = W6 m ρ c (Proc.devRef .tc main_arg5) := W7_of_ne m ρ c main_arg5 (by decide)
  -- region 0's exit
  have h30 : W4 m ρ c (Proc.devRef .tc main_v30)
      = mm1 (W3 m ρ c (Proc.devRef .tc main_arg0)) (W3 m ρ c (Proc.devRef .tc main_arg2)) :=
    (W4_arr m ρ c 2).trans (Cert.KernelIdeal.Regions.region0 (V3 m ρ) c)
  have h4_3 : W4 m ρ c (Proc.devRef .tc main_v3) = W3 m ρ c (Proc.devRef .tc main_v3) := W4_of_ne m ρ c main_v3 (by decide)
  have h4_6 : W4 m ρ c (Proc.devRef .tc main_v6) = W3 m ρ c (Proc.devRef .tc main_v6) := W4_of_ne m ρ c main_v6 (by decide)
  have h4_29 : W4 m ρ c (Proc.devRef .tc main_v29) = W3 m ρ c (Proc.devRef .tc main_v29) := W4_of_ne m ρ c main_v29 (by decide)
  have h4_a3 : W4 m ρ c (Proc.devRef .tc main_arg3) = W3 m ρ c (Proc.devRef .tc main_arg3) := W4_of_ne m ρ c main_arg3 (by decide)
  have h4_a4 : W4 m ρ c (Proc.devRef .tc main_arg4) = W3 m ρ c (Proc.devRef .tc main_arg4) := W4_of_ne m ρ c main_arg4 (by decide)
  have h4_a5 : W4 m ρ c (Proc.devRef .tc main_arg5) = W3 m ρ c (Proc.devRef .tc main_arg5) := W4_of_ne m ρ c main_arg5 (by decide)
  -- the stretches
  have e9 : W9 m ρ c = tail (W7 m ρ c) := rfl
  have e6 : W6 m ρ c = mid (W4 m ρ c) := rfl
  have e3 : W3 m ρ c = pre (W0 m ρ c) := rfl
  rw [e9, tail_out, h48, h7_3, h7_6, h7_29, h7_a5, e6, mid_out, mid_main_v3, mid_main_v6, mid_main_v29, mid_main_arg4,
    mid_main_arg5, h30, h4_3, h4_6, h4_29, h4_a3, h4_a4, h4_a5, e3, pre_row, pre_col, pre_nrm, pre_main_arg0,
    pre_main_arg2, pre_main_arg3, pre_main_arg4, pre_main_arg5]
  rfl

end Cert.KernelIdeal.Result

end
-- ==== Proof.RefRead.lean ====
/-
  The idealized reference's result, read back through the same stretches as the kernel program's.

  The reference's host operations are the kernel program's with one dense product in place of each launch, so its
  list is cut where the kernel program's regions stand: forty operations that build the index arrays and the edge
  weights, the first product, twenty-two operations of layer one's aggregation, the second product, and thirty-four
  of layer two's aggregation and the log-softmax. Each stretch computes the function of `Spec` that the kernel
  program's stretch computes.
-/
import proofs.«421674_j23587960389982_1_alg».proof.Proof.Spec
import proofs.«421674_j23587960389982_1_alg».proof.Proof.RefRun
import proofs.«421674_j23587960389982_1_alg».proof.Proof.LibCastSame
import Idealize.ShloMosaic.Lib.Pipeline.Frame

set_option maxRecDepth 16384

noncomputable section

namespace Cert.ReferenceIdeal.Stages

open Cert.ReferenceIdeal Cert.ReferenceIdeal.Gen Cert.ReferenceIdeal.Value Cert.Spec
open Idealize.ShloMosaic Idealize.ShloMosaic.TcCoe Idealize.SL.Sem Idealize.ShloMosaic.StableHlo

variable {F : FTy → Type} [FloatOps F]

/-- A buffer read through a line of operations, one operation at a time: at the operation that writes it, that
    operation's function of what its operands held; at any other operation, what the buffer held before. Used for the
    reads that sit inside the operand list of a concatenate. -/
macro "after_rest" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

/-! ## The cut -/

/-- The operations before the first product. -/
abbrev preOps : List (HloOp τ sig (Elt F)) := (ops (F := F)).take 40
/-- The first product. -/
abbrev p1Op : List (HloOp τ sig (Elt F)) := ((ops (F := F)).drop 40).take 1
/-- Layer one's aggregation. -/
abbrev midOps : List (HloOp τ sig (Elt F)) := ((ops (F := F)).drop 41).take 22
/-- The second product. -/
abbrev p2Op : List (HloOp τ sig (Elt F)) := ((ops (F := F)).drop 63).take 1
/-- Layer two's aggregation. -/
abbrev aggOps : List (HloOp τ sig (Elt F)) := ((ops (F := F)).drop 64).take 19
/-- The log-softmax. -/
abbrev lsmOps : List (HloOp τ sig (Elt F)) := (ops (F := F)).drop 83

/-- The list is its five stretches in order. -/
theorem ops_cut : (ops (F := F)) = preOps ++ (p1Op ++ (midOps ++ (p2Op ++ (aggOps ++ lsmOps)))) := by
  have h1 := (List.take_append_drop 40 (ops (F := F))).symm
  have h2 := (List.take_append_drop 1 ((ops (F := F)).drop 40)).symm
  have h3 := (List.take_append_drop 22 ((ops (F := F)).drop 41)).symm
  have h4 := (List.take_append_drop 1 ((ops (F := F)).drop 63)).symm
  have h5 := (List.take_append_drop 19 ((ops (F := F)).drop 64)).symm
  rw [List.drop_drop] at h2 h3 h4 h5
  show _ = (ops (F := F)).take 40 ++ (((ops (F := F)).drop 40).take 1 ++ (((ops (F := F)).drop 41).take 22 ++ (((ops (F := F)).drop 63).take 1 ++ (((ops (F := F)).drop 64).take 19 ++ (ops (F := F)).drop 83))))
  rw [← h5, ← h4, ← h3, ← h2, ← h1]

/-! ## Before the first product -/

theorem pre_row (W : Valuation τ sig (Elt F)) :
    after preOps W (Proc.devRef .tc main_v3) = rowOf (W (Proc.devRef .tc main_arg1)) := by
  simp only [preOps, ops, List.take_succ_cons, List.take_zero, List.drop_succ_cons, List.drop_zero]
  after_results_simp
  after_rest
  rfl

theorem pre_col (W : Valuation τ sig (Elt F)) :
    after preOps W (Proc.devRef .tc main_v6) = colOf (W (Proc.devRef .tc main_arg1)) := by
  simp only [preOps, ops, List.take_succ_cons, List.take_zero, List.drop_succ_cons, List.drop_zero]
  after_results_simp
  after_rest
  rfl

theorem pre_nrm (W : Valuation τ sig (Elt F)) :
    after preOps W (Proc.devRef .tc main_v29)
      = normOf (rowOf (W (Proc.devRef .tc main_arg1))) (colOf (W (Proc.devRef .tc main_arg1))) := by
  simp only [preOps, ops, List.take_succ_cons, List.take_zero, List.drop_succ_cons, List.drop_zero]
  after_results_simp
  after_rest
  try simp only [TRef.ofBuf, TRef.toBuf, Cert.Lib.cast_same]
  try rfl

theorem pre_main_arg0 (W : Valuation τ sig (Elt F)) :
    after preOps W (Proc.devRef .tc main_arg0) = W (Proc.devRef .tc main_arg0) := by
  simp only [preOps, ops, List.take_succ_cons, List.take_zero, List.drop_succ_cons, List.drop_zero]
  after_results_simp

theorem pre_main_arg2 (W : Valuation τ sig (Elt F)) :
    after preOps W (Proc.devRef .tc main_arg2) = W (Proc.devRef .tc main_arg2) := by
  simp only [preOps, ops, List.take_succ_cons, List.take_zero, List.drop_succ_cons, List.drop_zero]
  after_results_simp

theorem pre_main_arg3 (W : Valuation τ sig (Elt F)) :
    after preOps W (Proc.devRef .tc main_arg3) = W (Proc.devRef .tc main_arg3) := by
  simp only [preOps, ops, List.take_succ_cons, List.take_zero, List.drop_succ_cons, List.drop_zero]
  after_results_simp

theorem pre_main_arg4 (W : Valuation τ sig (Elt F)) :
    after preOps W (Proc.devRef .tc main_arg4) = W (Proc.devRef .tc main_arg4) := by
  simp only [preOps, ops, List.take_succ_cons, List.take_zero, List.drop_succ_cons, List.drop_zero]
  after_results_simp

theorem pre_main_arg5 (W : Valuation τ sig (Elt F)) :
    after preOps W (Proc.devRef .tc main_arg5) = W (Proc.devRef .tc main_arg5) := by
  simp only [preOps, ops, List.take_succ_cons, List.take_zero, List.drop_succ_cons, List.drop_zero]
  after_results_simp

/-! ## The first product -/

theorem p1_out (W : Valuation τ sig (Elt F)) :
    after p1Op W (Proc.devRef .tc main_v30)
      = Host.dotGeneral dot_S100000x1433_S1433x16_S100000x16_1_0_0_1_n_n none (W (Proc.devRef .tc main_arg0)) (W (Proc.devRef .tc main_arg2)) := by
  simp only [p1Op, ops, List.take_succ_cons, List.take_zero, List.drop_succ_cons, List.drop_zero]
  after_results_simp

theorem p1_main_v3 (W : Valuation τ sig (Elt F)) :
    after p1Op W (Proc.devRef .tc main_v3) = W (Proc.devRef .tc main_v3) := by
  simp only [p1Op, ops, List.take_succ_cons, List.take_zero, List.drop_succ_cons, List.drop_zero]
  after_results_simp

theorem p1_main_v6 (W : Valuation τ sig (Elt F)) :
    after p1Op W (Proc.devRef .tc main_v6) = W (Proc.devRef .tc main_v6) := by
  simp only [p1Op, ops, List.take_succ_cons, List.take_zero, List.drop_succ_cons, List.drop_zero]
  after_results_simp

theorem p1_main_v29 (W : Valuation τ sig (Elt F)) :
    after p1Op W (Proc.devRef .tc main_v29) = W (Proc.devRef .tc main_v29) := by
  simp only [p1Op, ops, List.take_succ_cons, List.take_zero, List.drop_succ_cons, List.drop_zero]
  after_results_simp

theorem p1_main_arg3 (W : Valuation τ sig (Elt F)) :
    after p1Op W (Proc.devRef .tc main_arg3) = W (Proc.devRef .tc main_arg3) := by
  simp only [p1Op, ops, List.take_succ_cons, List.take_zero, List.drop_succ_cons, List.drop_zero]
  after_results_simp

theorem p1_main_arg4 (W : Valuation τ sig (Elt F)) :
    after p1Op W (Proc.devRef .tc main_arg4) = W (Proc.devRef .tc main_arg4) := by
  simp only [p1Op, ops, List.take_succ_cons, List.take_zero, List.drop_succ_cons, List.drop_zero]
  after_results_simp

theorem p1_main_arg5 (W : Valuation τ sig (Elt F)) :
    after p1Op W (Proc.devRef .tc main_arg5) = W (Proc.devRef .tc main_arg5) := by
  simp only [p1Op, ops, List.take_succ_cons, List.take_zero, List.drop_succ_cons, List.drop_zero]
  after_results_simp

/-! ## Layer one's aggregation -/

theorem mid_out (W : Valuation τ sig (Elt F)) :
    after midOps W (Proc.devRef .tc main_v47)
      = conv1 (W (Proc.devRef .tc main_v30)) (W (Proc.devRef .tc main_v3)) (W (Proc.devRef .tc main_v6))
          (W (Proc.devRef .tc main_v29)) (W (Proc.devRef .tc main_arg3)) := by
  simp only [midOps, ops, List.take_succ_cons, List.take_zero, List.drop_succ_cons, List.drop_zero]
  after_results_simp
  try simp only [TRef.ofBuf, TRef.toBuf, Cert.Lib.cast_same]
  try rfl

theorem mid_main_v3 (W : Valuation τ sig (Elt F)) :
    after midOps W (Proc.devRef .tc main_v3) = W (Proc.devRef .tc main_v3) := by
  simp only [midOps, ops, List.take_succ_cons, List.take_zero, List.drop_succ_cons, List.drop_zero]
  after_results_simp

theorem mid_main_v6 (W : Valuation τ sig (Elt F)) :
    after midOps W (Proc.devRef .tc main_v6) = W (Proc.devRef .tc main_v6) := by
  simp only [midOps, ops, List.take_succ_cons, List.take_zero, List.drop_succ_cons, List.drop_zero]
  after_results_simp

theorem mid_main_v29 (W : Valuation τ sig (Elt F)) :
    after midOps W (Proc.devRef .tc main_v29) = W (Proc.devRef .tc main_v29) := by
  simp only [midOps, ops, List.take_succ_cons, List.take_zero, List.drop_succ_cons, List.drop_zero]
  after_results_simp

theorem mid_main_arg4 (W : Valuation τ sig (Elt F)) :
    after midOps W (Proc.devRef .tc main_arg4) = W (Proc.devRef .tc main_arg4) := by
  simp only [midOps, ops, List.take_succ_cons, List.take_zero, List.drop_succ_cons, List.drop_zero]
  after_results_simp

theorem mid_main_arg5 (W : Valuation τ sig (Elt F)) :
    after midOps W (Proc.devRef .tc main_arg5) = W (Proc.devRef .tc main_arg5) := by
  simp only [midOps, ops, List.take_succ_cons, List.take_zero, List.drop_succ_cons, List.drop_zero]
  after_results_simp

/-! ## The second product -/

theorem p2_out (W : Valuation τ sig (Elt F)) :
    after p2Op W (Proc.devRef .tc main_v48)
      = Host.dotGeneral dot_S100000x16_S16x7_S100000x7_1_0_0_1_n_n none (W (Proc.devRef .tc main_v47)) (W (Proc.devRef .tc main_arg4)) := by
  simp only [p2Op, ops, List.take_succ_cons, List.take_zero, List.drop_succ_cons, List.drop_zero]
  after_results_simp

theorem p2_main_v3 (W : Valuation τ sig (Elt F)) :
    after p2Op W (Proc.devRef .tc main_v3) = W (Proc.devRef .tc main_v3) := by
  simp only [p2Op, ops, List.take_succ_cons, List.take_zero, List.drop_succ_cons, List.drop_zero]
  after_results_simp

theorem p2_main_v6 (W : Valuation τ sig (Elt F)) :
    after p2Op W (Proc.devRef .tc main_v6) = W (Proc.devRef .tc main_v6) := by
  simp only [p2Op, ops, List.take_succ_cons, List.take_zero, List.drop_succ_cons, List.drop_zero]
  after_results_simp

theorem p2_main_v29 (W : Valuation τ sig (Elt F)) :
    after p2Op W (Proc.devRef .tc main_v29) = W (Proc.devRef .tc main_v29) := by
  simp only [p2Op, ops, List.take_succ_cons, List.take_zero, List.drop_succ_cons, List.drop_zero]
  after_results_simp

theorem p2_main_arg5 (W : Valuation τ sig (Elt F)) :
    after p2Op W (Proc.devRef .tc main_arg5) = W (Proc.devRef .tc main_arg5) := by
  simp only [p2Op, ops, List.take_succ_cons, List.take_zero, List.drop_succ_cons, List.drop_zero]
  after_results_simp

/-! ## Layer two's aggregation and the log-softmax -/

theorem agg_out (W : Valuation τ sig (Elt F)) :
    after aggOps W (Proc.devRef .tc main_v64)
      = agg2 (W (Proc.devRef .tc main_v48)) (W (Proc.devRef .tc main_v3)) (W (Proc.devRef .tc main_v6))
          (W (Proc.devRef .tc main_v29)) (W (Proc.devRef .tc main_arg5)) := by
  simp only [aggOps, ops, List.take_succ_cons, List.take_zero, List.drop_succ_cons, List.drop_zero]
  after_results_simp
  rfl

theorem lsm_out (W : Valuation τ sig (Elt F)) :
    after lsmOps W (Proc.devRef .tc main_v65) = logSoftmax (W (Proc.devRef .tc main_v64)) := by
  simp only [lsmOps, ops, List.take_succ_cons, List.take_zero, List.drop_succ_cons, List.drop_zero]
  after_results_simp
  try simp only [TRef.ofBuf, TRef.toBuf, Cert.Lib.cast_same]
  try rfl

/-! ## The whole list -/

/-- The reference's result buffer after all its operations: the network of `Spec` with the host's two products. -/
theorem result (W : Valuation τ sig (Elt F)) :
    after (ops (F := F)) W (Proc.devRef .tc main_v65)
      = gcn (F := F) (fun x w => Host.dotGeneral dot_S100000x1433_S1433x16_S100000x16_1_0_0_1_n_n none x w)
          (fun h w => Host.dotGeneral dot_S100000x16_S16x7_S100000x7_1_0_0_1_n_n none h w)
          (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  rw [ops_cut, after_append, after_append, after_append, after_append, after_append]
  rw [lsm_out, agg_out, p2_out, p2_main_v3, p2_main_v6, p2_main_v29, p2_main_arg5,
    mid_out, mid_main_v3, mid_main_v6, mid_main_v29, mid_main_arg4, mid_main_arg5,
    p1_out, p1_main_v3, p1_main_v6, p1_main_v29, p1_main_arg3, p1_main_arg4, p1_main_arg5,
    pre_row, pre_col, pre_nrm, pre_main_arg0, pre_main_arg2, pre_main_arg3, pre_main_arg4, pre_main_arg5]
  rfl

end Cert.ReferenceIdeal.Stages

end
-- ==== Proof.RefProducts.lean ====
/-
  The reference's two dense products on the extended reals.

  The host's contraction of the left operand's second axis with the right operand's first is, entry by entry, the
  plain sum over the contracted index: `Spec.mm1` for x · W1 and `Spec.mm2` for h · W2.
-/
import proofs.«421674_j23587960389982_1_alg».proof.ReferenceIdeal
import proofs.«421674_j23587960389982_1_alg».proof.Proof.Gen.ReferenceIdeal
import proofs.«421674_j23587960389982_1_alg».proof.Proof.Spec
import Idealize.ShloMosaic.Lib.ValueIdx
import Idealize.ShloMosaic.PureOps.Ideal.Laws

noncomputable section

namespace Cert.ReferenceIdeal.Products

open Cert.ReferenceIdeal Cert.ReferenceIdeal.Gen Idealize.ShloMosaic

/-! ## x · W1 -/

theorem lhs1_0 (i : S100000x16.Idx) (q : dot_S100000x1433_S1433x16_S100000x16_1_0_0_1_n_n.contr.Idx) :
    (dot_S100000x1433_S1433x16_S100000x16_1_0_0_1_n_n.lhsIdx i q 0).val = (i 0).val := by
  unfold DotDims.lhsIdx
  rw [dif_neg (show ¬(0 : Fin S100000x1433.rank) ∈ dot_S100000x1433_S1433x16_S100000x16_1_0_0_1_n_n.lhsBatch by decide), dif_pos (show (0 : Fin S100000x1433.rank) ∈ dot_S100000x1433_S1433x16_S100000x16_1_0_0_1_n_n.lhsNonContracting by decide)]
  rfl
theorem lhs1_1 (i : S100000x16.Idx) (q : dot_S100000x1433_S1433x16_S100000x16_1_0_0_1_n_n.contr.Idx) :
    (dot_S100000x1433_S1433x16_S100000x16_1_0_0_1_n_n.lhsIdx i q 1).val = (q ⟨0, by decide⟩).val :=
  dot_S100000x1433_S1433x16_S100000x16_1_0_0_1_n_n.lhsIdx_val_of_single rfl i q
theorem rhs1_0 (i : S100000x16.Idx) (q : dot_S100000x1433_S1433x16_S100000x16_1_0_0_1_n_n.contr.Idx) :
    (dot_S100000x1433_S1433x16_S100000x16_1_0_0_1_n_n.rhsIdx i q 0).val = (q ⟨0, by decide⟩).val :=
  dot_S100000x1433_S1433x16_S100000x16_1_0_0_1_n_n.rhsIdx_val_of_single rfl i q
theorem rhs1_1 (i : S100000x16.Idx) (q : dot_S100000x1433_S1433x16_S100000x16_1_0_0_1_n_n.contr.Idx) :
    (dot_S100000x1433_S1433x16_S100000x16_1_0_0_1_n_n.rhsIdx i q 1).val = (i 1).val := by
  unfold DotDims.rhsIdx
  rw [dif_neg (show ¬(1 : Fin S1433x16.rank) ∈ dot_S100000x1433_S1433x16_S100000x16_1_0_0_1_n_n.rhsBatch by decide), dif_pos (show (1 : Fin S1433x16.rank) ∈ dot_S100000x1433_S1433x16_S100000x16_1_0_0_1_n_n.rhsNonContracting by decide)]
  rfl

/-- On the extended reals the host's product is the plain sum over the contracted axis: entry (r, j) is the sum over k
    of the left operand at (r, k) times the right operand at (k, j). -/
theorem product1 (x : FVec Ideal S100000x1433 .f32) (w : FVec Ideal S1433x16 .f32) :
    Host.dotGeneral dot_S100000x1433_S1433x16_S100000x16_1_0_0_1_n_n none x w = Cert.Spec.mm1 x w := by
  funext i
  show _ = ∑ k : Fin 1433, x (Cert.Spec.lidx1 i k) * w (Cert.Spec.ridx1 i k)
  simp only [Host.dotGeneral]
  rw [Ideal.dotGeneral_apply, ← Equiv.sum_comp (ValueIdx.contrEquiv1 dot_S100000x1433_S1433x16_S100000x16_1_0_0_1_n_n 1433 rfl rfl).symm]
  refine Finset.sum_congr rfl fun k _ => ?_
  have hk := ValueIdx.contrEquiv1_symm_val dot_S100000x1433_S1433x16_S100000x16_1_0_0_1_n_n 1433 rfl rfl k
  have el : dot_S100000x1433_S1433x16_S100000x16_1_0_0_1_n_n.lhsIdx i ((ValueIdx.contrEquiv1 dot_S100000x1433_S1433x16_S100000x16_1_0_0_1_n_n 1433 rfl rfl).symm k) = Cert.Spec.lidx1 i k := funext fun a => Fin.ext (by
    match a with
    | ⟨0, _⟩ => exact lhs1_0 _ _
    | ⟨1, _⟩ => exact (lhs1_1 _ _).trans hk)
  have er : dot_S100000x1433_S1433x16_S100000x16_1_0_0_1_n_n.rhsIdx i ((ValueIdx.contrEquiv1 dot_S100000x1433_S1433x16_S100000x16_1_0_0_1_n_n 1433 rfl rfl).symm k) = Cert.Spec.ridx1 i k := funext fun a => Fin.ext (by
    match a with
    | ⟨0, _⟩ => exact (rhs1_0 _ _).trans hk
    | ⟨1, _⟩ => exact rhs1_1 _ _)
  rw [el, er]

/-! ## h · W2 -/

theorem lhs2_0 (i : S100000x7.Idx) (q : dot_S100000x16_S16x7_S100000x7_1_0_0_1_n_n.contr.Idx) :
    (dot_S100000x16_S16x7_S100000x7_1_0_0_1_n_n.lhsIdx i q 0).val = (i 0).val := by
  unfold DotDims.lhsIdx
  rw [dif_neg (show ¬(0 : Fin S100000x16.rank) ∈ dot_S100000x16_S16x7_S100000x7_1_0_0_1_n_n.lhsBatch by decide), dif_pos (show (0 : Fin S100000x16.rank) ∈ dot_S100000x16_S16x7_S100000x7_1_0_0_1_n_n.lhsNonContracting by decide)]
  rfl
theorem lhs2_1 (i : S100000x7.Idx) (q : dot_S100000x16_S16x7_S100000x7_1_0_0_1_n_n.contr.Idx) :
    (dot_S100000x16_S16x7_S100000x7_1_0_0_1_n_n.lhsIdx i q 1).val = (q ⟨0, by decide⟩).val :=
  dot_S100000x16_S16x7_S100000x7_1_0_0_1_n_n.lhsIdx_val_of_single rfl i q
theorem rhs2_0 (i : S100000x7.Idx) (q : dot_S100000x16_S16x7_S100000x7_1_0_0_1_n_n.contr.Idx) :
    (dot_S100000x16_S16x7_S100000x7_1_0_0_1_n_n.rhsIdx i q 0).val = (q ⟨0, by decide⟩).val :=
  dot_S100000x16_S16x7_S100000x7_1_0_0_1_n_n.rhsIdx_val_of_single rfl i q
theorem rhs2_1 (i : S100000x7.Idx) (q : dot_S100000x16_S16x7_S100000x7_1_0_0_1_n_n.contr.Idx) :
    (dot_S100000x16_S16x7_S100000x7_1_0_0_1_n_n.rhsIdx i q 1).val = (i 1).val := by
  unfold DotDims.rhsIdx
  rw [dif_neg (show ¬(1 : Fin S16x7.rank) ∈ dot_S100000x16_S16x7_S100000x7_1_0_0_1_n_n.rhsBatch by decide), dif_pos (show (1 : Fin S16x7.rank) ∈ dot_S100000x16_S16x7_S100000x7_1_0_0_1_n_n.rhsNonContracting by decide)]
  rfl

/-- On the extended reals the host's product is the plain sum over the contracted axis: entry (r, j) is the sum over k
    of the left operand at (r, k) times the right operand at (k, j). -/
theorem product2 (x : FVec Ideal S100000x16 .f32) (w : FVec Ideal S16x7 .f32) :
    Host.dotGeneral dot_S100000x16_S16x7_S100000x7_1_0_0_1_n_n none x w = Cert.Spec.mm2 x w := by
  funext i
  show _ = ∑ k : Fin 16, x (Cert.Spec.lidx2 i k) * w (Cert.Spec.ridx2 i k)
  simp only [Host.dotGeneral]
  rw [Ideal.dotGeneral_apply, ← Equiv.sum_comp (ValueIdx.contrEquiv1 dot_S100000x16_S16x7_S100000x7_1_0_0_1_n_n 16 rfl rfl).symm]
  refine Finset.sum_congr rfl fun k _ => ?_
  have hk := ValueIdx.contrEquiv1_symm_val dot_S100000x16_S16x7_S100000x7_1_0_0_1_n_n 16 rfl rfl k
  have el : dot_S100000x16_S16x7_S100000x7_1_0_0_1_n_n.lhsIdx i ((ValueIdx.contrEquiv1 dot_S100000x16_S16x7_S100000x7_1_0_0_1_n_n 16 rfl rfl).symm k) = Cert.Spec.lidx2 i k := funext fun a => Fin.ext (by
    match a with
    | ⟨0, _⟩ => exact lhs2_0 _ _
    | ⟨1, _⟩ => exact (lhs2_1 _ _).trans hk)
  have er : dot_S100000x16_S16x7_S100000x7_1_0_0_1_n_n.rhsIdx i ((ValueIdx.contrEquiv1 dot_S100000x16_S16x7_S100000x7_1_0_0_1_n_n 16 rfl rfl).symm k) = Cert.Spec.ridx2 i k := funext fun a => Fin.ext (by
    match a with
    | ⟨0, _⟩ => exact (rhs2_0 _ _).trans hk
    | ⟨1, _⟩ => exact rhs2_1 _ _)
  rw [el, er]

end Cert.ReferenceIdeal.Products

end
-- ==== Proof.lean ====
/-
  A two-layer graph convolution whose two dense products are Pallas matmuls, against the same network with the
  products on the host.

  Both programs compute, from the edge list, the index arrays (with self loops) and the symmetric edge weights
  dinv[row] · dinv[col]; then x · W1, gathered along the targets, weighted, summed by source, biased and rectified;
  then that times W2, aggregated the same way, biased, and log-softmaxed row by row. Their host operations are the
  same, operation for operation; they differ only in the two products. The kernel program tiles x · W1 over fifty row
  blocks and computes h · W2 as one block, each into a zero accumulator; the reference contracts on the host. On the
  extended reals both are the plain sum over the contracted index, so both results are one function of the
  arguments (`Spec.gcn` at `Spec.mm1`, `Spec.mm2`). No finiteness of the inputs is used: the two sides are the same
  expression, not two expressions joined by a law.
-/
import proofs.«421674_j23587960389982_1_alg».proof.Defs
import proofs.«421674_j23587960389982_1_alg».proof.Proof.Gen.Kernel
import proofs.«421674_j23587960389982_1_alg».proof.Proof.Gen.Kernel.Frame
import proofs.«421674_j23587960389982_1_alg».proof.Proof.Gen.KernelIdeal
import proofs.«421674_j23587960389982_1_alg».proof.Proof.Gen.KernelIdeal.Frame
import proofs.«421674_j23587960389982_1_alg».proof.Proof.Gen.ReferenceIdeal
import proofs.«421674_j23587960389982_1_alg».proof.Proof.Gen.Pre_finite_inputs
import proofs.«421674_j23587960389982_1_alg».proof.Proof.KernelRun
import proofs.«421674_j23587960389982_1_alg».proof.Proof.KernelValue
import proofs.«421674_j23587960389982_1_alg».proof.Proof.RefRun
import proofs.«421674_j23587960389982_1_alg».proof.Proof.RefRead
import proofs.«421674_j23587960389982_1_alg».proof.Proof.RefProducts
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The host's first product is the plain sum. -/
theorem host_product1 :
    (fun x w => Host.dotGeneral Cert.ReferenceIdeal.dot_S100000x1433_S1433x16_S100000x16_1_0_0_1_n_n none x w)
      = Cert.Spec.mm1 := funext fun x => funext fun w => Cert.ReferenceIdeal.Products.product1 x w

/-- The host's second product is the plain sum. -/
theorem host_product2 :
    (fun h w => Host.dotGeneral Cert.ReferenceIdeal.dot_S100000x16_S16x7_S100000x7_1_0_0_1_n_n none h w)
      = Cert.Spec.mm2 := funext fun h => funext fun w => Cert.ReferenceIdeal.Products.product2 h w

/-- From memories agreeing on the arguments both idealized programs end with the result buffer at `Spec.gcn` of the
    kernel program's arguments, the two products being the plain sums on both sides. -/
theorem algebraic : Cert.algebraic_KernelIdeal_ReferenceIdeal := by
  intro m ρ m' ρ' _ hagree
  refine ⟨fun c => Cert.Spec.gcn (F := Ideal) Cert.Spec.mm1 Cert.Spec.mm2
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Stages.result, host_product1, host_product2]
    show Cert.Spec.gcn (F := Ideal) Cert.Spec.mm1 Cert.Spec.mm2
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
